-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S10000x128 .f32) (main_arg1 : IVec S2x320000 32) (main_arg2 : FVec F S128x128 .f32) (main_arg3 : FVec F S128 .f32) (main_arg4 : FVec F S128x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S10000x1 : Shape := ⟨2, ![10000, 1]⟩
abbrev S10240x1 : Shape := ⟨2, ![10240, 1]⟩
abbrev S1x10240 : Shape := ⟨2, ![1, 10240]⟩
abbrev S256x1 : Shape := ⟨2, ![256, 1]⟩
abbrev S256x10240 : Shape := ⟨2, ![256, 10240]⟩
abbrev S256 : Shape := ⟨1, ![256]⟩
abbrev S10000 : Shape := ⟨1, ![10000]⟩

abbrev nBuf : Space → Nat
  | .hbm => 38
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S_, .f32⟩
  | .hbm, ⟨19, _⟩ => ⟨S10000x128, .f32⟩
  | .hbm, ⟨20, _⟩ => ⟨S320000x1, .i32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x1, .f32⟩
  | .hbm, ⟨31, _⟩ => ⟨S_, .i32⟩
  | .hbm, ⟨32, _⟩ => ⟨S_, .f32⟩
  | .hbm, ⟨33, _⟩ => ⟨S10240x1, .f32⟩
  | .hbm, ⟨34, _⟩ => ⟨S1x10240, .f32⟩
  | .hbm, ⟨35, _⟩ => ⟨S10240x1, .f32⟩
  | .hbm, ⟨36, _⟩ => ⟨S10000x1, .f32⟩
  | .hbm, ⟨37, _⟩ => ⟨S10000, .f32⟩
  | .local _ .vmem, ⟨0, _⟩ => ⟨S256x1, .f32⟩
  | .local _ .vmem, ⟨1, _⟩ => ⟨S256x1, .f32⟩
  | .local _ .vmem, ⟨2, _⟩ => ⟨S1x10240, .f32⟩
  | .local _ .vmem, ⟨3, _⟩ => ⟨S256x1, .f32⟩
  | .local _ .vmem, ⟨4, _⟩ => ⟨S256x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  pads_S10000x1_S10240x1_02400_000 : S10000x1.Pads (![0, 0] : Fin 2 → Nat) ![240, 0] ![0, 0] S10240x1
  h_S_ : 0 < S_.numel
  shapeCasts_S10240x1_S1x10240 : S10240x1.ShapeCasts S1x10240
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x10240_S1x10240_0_0 : ∀ a, (![0, 0] : Fin 2 → Nat) a + S1x10240.size a ≤ S1x10240.size a
  h_S1x10240 : 0 < S1x10240.numel
  shapeCasts_S1x10240_S1x10240 : S1x10240.ShapeCasts S1x10240
  broadcasts_S256x1_S256x10240 : S256x1.Broadcasts S256x10240
  broadcasts_S1x10240_S256x10240 : S1x10240.Broadcasts S256x10240
  iota_S256x10240_d1_w32 : S256x10240.Iotas .tc 32 [1]
  reduces_S256x10240_S256 : S256x10240.Reduces [1] S256
  shapeCasts_S256_S256x1 : S256.ShapeCasts S256x1
  slices_S10240x1_S10000x1_0_0 : S10240x1.Slices ![0, 0] S10000x1
  shapeCasts_S10000x1_S10000 : S10000x1.ShapeCasts S10000
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S10240x1.size a
  hwx0_0 : ∀ i : grid0.Coords, EltTy.bits .f32 = 32 ∨ (Rect.block (s := S10240x1) S256x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10240.size a ≤ S1x10240.size a
  hwx0_1 : ∀ i : grid0.Coords, EltTy.bits .f32 = 32 ∨ (Rect.block (s := S1x10240) S1x10240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S10240x1.size a
  hwx0_2 : ∀ i : grid0.Coords, EltTy.bits .f32 = 32 ∨ (Rect.block (s := S10240x1) S256x1.size (cc0_transform_2 i) (hinb0_2 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v21) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x10240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S10000x1 : Shape := ⟨2, ![10000, 1]⟩
abbrev S1x10000 : Shape := ⟨2, ![1, 10000]⟩
abbrev S10000x10000 : Shape := ⟨2, ![10000, 10000]⟩
abbrev S10000 : Shape := ⟨1, ![10000]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S_, .f32⟩
  | .hbm, ⟨19, _⟩ => ⟨S10000x128, .f32⟩
  | .hbm, ⟨20, _⟩ => ⟨S320000x1, .i32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x1, .f32⟩
  | .hbm, ⟨31, _⟩ => ⟨S1x10000, .f32⟩
  | .hbm, ⟨32, _⟩ => ⟨S10000x10000, .f32⟩
  | .hbm, ⟨33, _⟩ => ⟨S10000x10000, .f32⟩
  | .hbm, ⟨34, _⟩ => ⟨S10000x10000, .f32⟩
  | .hbm, ⟨35, _⟩ => ⟨S_, .f32⟩
  | .hbm, ⟨36, _⟩ => ⟨S10000x10000, .f32⟩
  | .hbm, ⟨37, _⟩ => ⟨S10000x10000, .f32⟩
  | .hbm, ⟨38, _⟩ => ⟨S_, .f32⟩
  | .hbm, ⟨39, _⟩ => ⟨S10000x10000, .f32⟩
  | .hbm, ⟨40, _⟩ => ⟨S10000x10000, .f32⟩
  | .hbm, ⟨41, _⟩ => ⟨S10000x10000, .f32⟩
  | .hbm, ⟨42, _⟩ => ⟨S_, .f32⟩
  | .hbm, ⟨43, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x1_S1x10000_1_0 : S10000x1.Transposes [1, 0] S1x10000
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  reducesTo_S10000x10000_S10000_d1 : S10000x10000.ReducesTo [1] S10000
  h_S_ : 0 < S_.numel
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.KernelHost.lean ====
/-
  What the host lines before the kernel's launch hand it: the column of node scores, padded with zeros from
  10000 to 10240 rows, and the same padded column laid out as one row. The scores are computed by the same
  operations, in the same order, as the reference computes its column of scores.
-/
import proofs.«143994_j9586367004883_1_alg».proof.Proof.Gen.KernelIdeal.Frame
import proofs.«143994_j9586367004883_1_alg».proof.Proof.Gen.ReferenceIdeal.Read
import Idealize.ShloMosaic.Lib.StableHlo.Run
import Idealize.ShloMosaic.Lib.KernelVsHost
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The column of node scores, as a function of the five arguments: the stage of the reference that holds it,
    read at this program's arguments. -/
abbrev scores (c : Dev nD) : FVec Ideal S10000x1 .f32 :=
  Cert.ReferenceIdeal.Read.val_main_v20 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4))

/-- The scores padded with the converted integer zero to 10240 rows. -/
abbrev padded (c : Dev nD) : FVec Ideal S10240x1 .f32 :=
  pad S10240x1 ![0, 0] ![240, 0] ![0, 0] (scores m c) (sitofp (F := Ideal) .f32 (constantI S_ 32 0#32))
    pads_S10000x1_S10240x1_02400_000 h_S_

/-- The array the kernel's first window stages is the padded column of scores. -/
theorem col_eq (c : Dev nD) : (V m c main_v21 : S10240x1.Idx → EReal) = padded m c := by
  dsimp only [V, V0]
  simp only [hostOps0, hostOps0_1, hostOps0_2, hostOps0_3, hostOps0_4, List.flatten_cons, List.flatten_nil,
    List.append_nil, List.cons_append, List.nil_append]
  after_results_simp
  rfl

/-- The array its second window stages is the padded column laid out as one row. -/
theorem row_eq (c : Dev nD) :
    (V m c main_v22 : S1x10240.Idx → EReal) = shapeCast S1x10240 (padded m c) shapeCasts_S10240x1_S1x10240 := by
  dsimp only [V, V0]
  simp only [hostOps0, hostOps0_1, hostOps0_2, hostOps0_3, hostOps0_4, List.flatten_cons, List.flatten_nil,
    List.append_nil, List.cons_append, List.nil_append]
  after_results_simp
  rfl

end Cert.KernelIdeal.Hand

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.Spec.lean ====
/-
  The row sums of a soft sign over all pairs of node scores, and the two ways the programs lay them out.

  For a column of scores X (one per node, 10000 nodes) the result at node i is
      Σ_{j < 10000} tanh (1000 · (X i − X j) − 5).
  One side works on the column padded to 10240 entries: it cuts the padded column into tiles of 256 rows,
  spreads each tile against the whole padded column laid out as a row, masks the columns j ≥ 10000 to zero
  and sums each row of the tile over all 10240 columns. The masked columns add zero, so the sum over the
  10240 padded columns is the sum over the first 10000.
-/
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import proofs.«143994_j9586367004883_1_alg».proof.Proof.LibTile

noncomputable section

namespace Cert.SoftRank

open Idealize.ShloMosaic Idealize.ShloMosaic.ValueIdx

/-- The soft sign of a difference of two scores: tanh (1000 · (a − b) − 5), both constants exact. -/
def soft (a b : EReal) : EReal :=
  Ideal.tanh (Ideal.ofBits .f32 0x447A0000#32 * (a - b) - Ideal.ofBits .f32 0x40A00000#32)

/-- The result: at node i the soft signs of its score against every node's score, summed. -/
def rowsum (X : FVec Ideal ⟨2, ![10000, 1]⟩ .f32) : FVec Ideal ⟨1, ![10000]⟩ .f32 :=
  fun i => ∑ j : Fin 10000, soft (X (ix2 (i 0) 0)) (X (ix2 j 0))

/-- The same over a padded column of 10240 entries and the same column as a row, the columns from 10000 on masked. -/
def paddedRowsum (col : FVec Ideal ⟨2, ![10240, 1]⟩ .f32) (row : FVec Ideal ⟨2, ![1, 10240]⟩ .f32) :
    FVec Ideal ⟨2, ![10240, 1]⟩ .f32 :=
  fun y => ∑ k : Fin 10240, if k.val < 10000 then soft (col (ix2 (y 0) 0)) (row (ix2 0 k)) else 0

/-- The lane mask: column k of the tile is kept exactly when k < 10000. -/
theorem lane_mask (hi : (⟨2, ![256, 10240]⟩ : Shape).Iotas .tc 32 [1]) (r : Fin 256) (k : Fin 10240) :
    cmpi .slt (iota .tc ⟨2, ![256, 10240]⟩ 32 [1] hi) (broadcast ⟨2, ![256, 10240]⟩ (10000#32 : BitVec 32)) (ix2 r k)
      = if k.val < 10000 then 1#1 else 0#1 := by
  show IntOp.cmpi .slt (iota .tc ⟨2, ![256, 10240]⟩ 32 [1] hi (ix2 r k)) (10000#32 : BitVec 32) = _
  rw [iota_single_apply]
  show IntOp.cmpi .slt (BitVec.ofNat 32 k.val) (10000#32 : BitVec 32) = _
  have hk : k.val < 10240 := k.isLt
  have hn : (BitVec.ofNat 32 k.val).toNat = k.val := by
    rw [BitVec.toNat_ofNat]; exact Nat.mod_eq_of_lt (by omega)
  have hiff := StableHlo.Predicate.slt_iff_toNat (a := BitVec.ofNat 32 k.val) (b := (10000#32 : BitVec 32))
    (by rw [hn]; omega) (by decide)
  rw [hn] at hiff
  split
  · rename_i h; exact hiff.mpr h
  · rename_i h; exact eq_zero_of_ne_one fun e => h (hiff.mp e)

/-- One tile: rows r of a 256-row block of the column against the whole row, masked and summed over the
    10240 columns, kept as a column. -/
theorem tile_apply
    (xi : FVec Ideal ⟨2, ![256, 1]⟩ .f32) (xj : FVec Ideal ⟨2, ![1, 10240]⟩ .f32)
    (h1 : (⟨2, ![256, 1]⟩ : Shape).ShapeCasts ⟨2, ![256, 1]⟩)
    (h2 : (⟨2, ![1, 10240]⟩ : Shape).ShapeCasts ⟨2, ![1, 10240]⟩)
    (hb1 : (⟨2, ![256, 1]⟩ : Shape).Broadcasts ⟨2, ![256, 10240]⟩)
    (hb2 : (⟨2, ![1, 10240]⟩ : Shape).Broadcasts ⟨2, ![256, 10240]⟩)
    (hi : (⟨2, ![256, 10240]⟩ : Shape).Iotas .tc 32 [1])
    (hr : Shape.Reduces ⟨2, ![256, 10240]⟩ [1] ⟨1, ![256]⟩)
    (hφ : FKind.Formats .f32) (hacc : (0x00000000#32 : BitVec 32) = 0x00000000#32)
    (hc : (⟨1, ![256]⟩ : Shape).ShapeCasts ⟨2, ![256, 1]⟩) (r : Fin 256) (u : Fin 1) :
    shapeCast ⟨2, ![256, 1]⟩ (multiReduction (F := Ideal) .add [1] ⟨1, ![256]⟩
      (select (cmpi .slt (iota .tc ⟨2, ![256, 10240]⟩ 32 [1] hi) (broadcast ⟨2, ![256, 10240]⟩ (10000#32 : BitVec 32)))
        (tanh (subf (mulf (broadcast ⟨2, ![256, 10240]⟩ (Scalar.ofBits (F := Ideal) .f32 0x447A0000#32))
                      (subf (broadcastTo ⟨2, ![256, 10240]⟩ (shapeCast ⟨2, ![256, 1]⟩ xi h1) hb1)
                            (broadcastTo ⟨2, ![256, 10240]⟩ (shapeCast ⟨2, ![1, 10240]⟩ xj h2) hb2)))
                    (broadcast ⟨2, ![256, 10240]⟩ (Scalar.ofBits (F := Ideal) .f32 0x40A00000#32))))
        (broadcast ⟨2, ![256, 10240]⟩ (Scalar.ofBits (F := Ideal) .f32 0x00000000#32)))
      0x00000000#32 hr hφ hacc) hc (ix2 r u)
    = ∑ k : Fin 10240, if k.val < 10000 then soft (xi (ix2 r 0)) (xj (ix2 0 k)) else 0 := by
  refine (Cert.Tile.rowSumCol_apply _ hr hφ hacc hc r u).trans ?_
  refine Finset.sum_congr rfl fun k _ => ?_
  refine (select_apply _ _ _ (ix2 r k)).trans ?_
  rw [lane_mask hi r k]
  split
  · rw [select_one]
    show Ideal.tanh (Ideal.ofBits .f32 0x447A0000#32
        * (broadcastTo ⟨2, ![256, 10240]⟩ (shapeCast ⟨2, ![256, 1]⟩ xi h1) hb1 (ix2 r k)
            - broadcastTo ⟨2, ![256, 10240]⟩ (shapeCast ⟨2, ![1, 10240]⟩ xj h2) hb2 (ix2 r k))
        - Ideal.ofBits .f32 0x40A00000#32) = _
    rw [Cert.Tile.broadcastTo_a1_ab_apply, broadcastTo_1b_ab_apply, shapeCast_self, shapeCast_self]
    rfl
  · rw [select_zero]
    exact Ideal.ofBits_zero_f32

/-- The masked columns add nothing: over a padded column whose first 10000 entries are X, read also as a
    row, row i < 10000 of the padded sums is the result at node i. -/
theorem paddedRowsum_eq (X : FVec Ideal ⟨2, ![10000, 1]⟩ .f32)
    (col : FVec Ideal ⟨2, ![10240, 1]⟩ .f32) (row : FVec Ideal ⟨2, ![1, 10240]⟩ .f32)
    (hcol : ∀ (p : Fin 10000) (p' : Fin 10240), p'.val = p.val → col (ix2 p' 0) = X (ix2 p 0))
    (hrow : ∀ k : Fin 10240, row (ix2 0 k) = col (ix2 k 0))
    (i : Fin 10000) (i' : Fin 10240) (hi : i'.val = i.val) (u : Fin 1) :
    paddedRowsum col row (ix2 i' u) = rowsum X (ix1 i) := by
  unfold paddedRowsum rowsum
  show (∑ k : Fin (10000 + 240), if k.val < 10000 then soft (col (ix2 i' 0)) (row (ix2 0 k)) else 0)
      = ∑ j : Fin 10000, soft (X (ix2 i 0)) (X (ix2 j 0))
  rw [Fin.sum_univ_add]
  have htail : (∑ k : Fin 240, if (Fin.natAdd 10000 k : Fin (10000 + 240)).val < 10000
      then soft (col (ix2 i' 0)) (row (ix2 0 (Fin.natAdd 10000 k))) else 0) = 0 :=
    Finset.sum_eq_zero fun k _ => if_neg (by show ¬ (10000 + k.val < 10000); omega)
  rw [htail, add_zero]
  refine Finset.sum_congr rfl fun j _ => ?_
  have hj : (Fin.castAdd 240 j : Fin (10000 + 240)).val < 10000 := j.isLt
  rw [if_pos hj, hrow, hcol i i' hi, hcol j (Fin.castAdd 240 j) rfl]

end Cert.SoftRank

end
-- ==== Proof.KernelValue.lean ====
/-
  The kernel's launch, read as values. Grid point t stages rows 256 t … 256 t + 255 of the padded column of
  scores and the whole padded column as a row, and writes back, for each of its 256 rows, the soft signs of
  that row's score against every column's, the columns from 10000 on masked to zero, summed over the 10240
  columns. The forty blocks tile the [10240, 1] result, so the result array is that masked row sum at every
  row; the host lines after the launch keep its first 10000 rows as a vector.
-/
import proofs.«143994_j9586367004883_1_alg».proof.Proof.KernelHost
import proofs.«143994_j9586367004883_1_alg».proof.Proof.Spec

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored value at a row of the tile: the masked sum of soft signs over the 10240 columns. -/
theorem tile_pay (x0 : Vec Ideal S256x1 .f32) (x1 : Vec Ideal S1x10240 .f32) (y : S256x1.Idx) :
    k0_pay1 x0 x1 y
      = ∑ k : Fin 10240, if k.val < 10000 then Cert.SoftRank.soft (x0 (ix2 (y 0) 0)) (x1 (ix2 0 k)) else 0 := by
  obtain ⟨r, u, rfl⟩ : ∃ (r : Fin 256) (u : Fin 1), y = ix2 r u := ⟨y 0, y 1, eq_ix2 y⟩
  unfold k0_pay1
  exact Cert.SoftRank.tile_apply x0 x1 _ _ _ _ _ _ _ _ _ r u

/-- The index maps over the grid: the column window and the result window move one block of rows per point,
    the row window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The column window's block at point t is rows 256 t … of the padded column. -/
theorem colBlk_apply (c : Dev nD) (t : Fin cfg0.N) (y : S256x1.Idx) (p : S10240x1.Idx)
    (hp0 : (p 0).val = t.val * 256 + (y 0).val) :
    (iblk m c 0 t : Vec Ideal S256x1 .f32) y = (V m c main_v21 : S10240x1.Idx → EReal) p := by
  obtain ⟨e00, e01, -⟩ := idx_facts t
  have hy1 : (y 1).val < 1 := (y 1).isLt
  have hp1 : (p 1).val < 1 := (p 1).isLt
  unfold iblk
  rw [View.read_apply]
  show V m c main_v21 _ = V m c main_v21 _
  refine congrArg (V m c main_v21) (funext fun a => Fin.ext ?_)
  match a with
  | ⟨0, _⟩ => show win0_0.index t 0 * 256 + 1 * (y 0).val = (p 0).val; rw [e00, hp0]; omega
  | ⟨1, _⟩ => show win0_0.index t 1 * 1 + 1 * (y 1).val = (p 1).val; rw [e01]; omega

/-- The row window's block at every point is the whole padded row. -/
theorem rowBlk_apply (c : Dev nD) (t : Fin cfg0.N) (y : S1x10240.Idx) :
    (iblk m c 1 t : Vec Ideal S1x10240 .f32) y = (V m c main_v22 : S1x10240.Idx → EReal) y := by
  obtain ⟨-, -, e10, e11, -⟩ := idx_facts t
  unfold iblk
  rw [View.read_apply]
  show V m c main_v22 _ = V m c main_v22 _
  refine congrArg (V m c main_v22) (funext fun a => Fin.ext ?_)
  match a with
  | ⟨0, _⟩ => show win0_1.index t 0 * 1 + 1 * (y 0).val = (y 0).val; rw [e10]; omega
  | ⟨1, _⟩ => show win0_1.index t 1 * 10240 + 1 * (y 1).val = (y 1).val; rw [e11]; omega

/-- What the result array ends holding: the masked row sums over the padded column and the padded row. -/
abbrev masked (c : Dev nD) : S10240x1.Idx → EReal :=
  Cert.SoftRank.paddedRowsum (V m c main_v21) (V m c main_v22)

/-- What point t writes back is its block of the masked row sums. -/
theorem flushed_eq (c : Dev nD) (t : Fin cfg0.N) :
    (dats m 0 c).flushed 2 t = ((cfg0.win 2).blk t).view.read (Elt Ideal) (masked m c) := by
  show (cfg0.win 2).cut (grid0.coords t) ((dats m 0 c).after 2 t) = _
  rw [after0_2]
  unfold out0_2
  rw [View.canon_unit_zero hz]
  simp only [View.ld_unit_zero (S := S256x1) hz, View.ld_unit_zero (S := S1x10240) hz]
  obtain ⟨-, -, -, -, e20, e21⟩ := idx_facts t
  funext j
  show k0_pay1 (iblk m c 0 t) (iblk m c 1 t) j
    = Cert.SoftRank.paddedRowsum (V m c main_v21) (V m c main_v22) (((cfg0.win 2).blk t).view.emb j)
  refine (tile_pay (iblk m c 0 t) (iblk m c 1 t) j).trans ?_
  refine Finset.sum_congr rfl fun k _ => ?_
  rw [colBlk_apply m c t (ix2 (j 0) 0) (ix2 ((((cfg0.win 2).blk t).view.emb j) 0) 0)
        (by show win0_2.index t 0 * 256 + 1 * (j 0).val = t.val * 256 + (j 0).val; rw [e20]; omega),
    rowBlk_apply m c t (ix2 0 k)]

/-- An index of the result array is in point t's block iff each coordinate is in the block's range. -/
theorem mem_blk (t : Fin cfg0.N) (i : S10240x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v23).slice (win0_2.rect t)).set ↔ _
  rw [View.set_slice_whole, Rect.mem_set_unit]
  exact Iff.rfl

/-- Row i of the result array is written by point i / 256. -/
theorem cover (i : S10240x1.Idx) :
    ∃ t : Fin cfg0.N, (cfg0.win 2).flush t = true ∧ i ∈ ((cfg0.win 2).blk t).view.set := by
  have hi0 : (i 0).val < 10240 := (i 0).isLt
  have hi1 : (i 1).val < 1 := (i 1).isLt
  have hN : cfg0.N = 40 := N_0
  have ht : (i 0).val / 256 < cfg0.N := by rw [hN]; omega
  obtain ⟨-, -, -, -, e20, e21⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ 0 * 256 ≤ (i 0).val
      ∧ (i 0).val < win0_2.index ⟨(i 0).val / 256, ht⟩ 0 * 256 + 256
    rw [e20]; show (i 0).val / 256 * 256 ≤ (i 0).val ∧ (i 0).val < (i 0).val / 256 * 256 + 256; omega
  | ⟨1, _⟩ =>
    show win0_2.index ⟨(i 0).val / 256, ht⟩ 1 * 1 ≤ (i 1).val
      ∧ (i 1).val < win0_2.index ⟨(i 0).val / 256, ht⟩ 1 * 1 + 1
    rw [e21]; omega

/-- The result array after the launch. -/
theorem final23 (c : Dev nD) : (dats m 0 c).arrAt 2 cfg0.N = masked m c :=
  (dats m 0 c).arrAt_eq_of_cover 2 (masked m c) (fun t _ => flushed_eq m c t) cover

/-- Row p < 10000 of the padded column is the score of node p. -/
theorem col_apply (c : Dev nD) (p : Fin 10000) (p' : Fin 10240) (h : p'.val = p.val) :
    (V m c main_v21 : S10240x1.Idx → EReal) (ix2 p' 0) = scores m c (ix2 p 0) := by
  rw [col_eq]
  exact pad_apply_of_inside ![0, 0] ![240, 0] ![0, 0] (scores m c) _ pads_S10000x1_S10240x1_02400_000 h_S_
    (ix2 p' 0) (ix2 p 0) (fun a => by
      match a with
      | ⟨0, _⟩ => show p'.val = 0 + p.val * (0 + 1); omega
      | ⟨1, _⟩ => rfl)

/-- Column k of the padded row is row k of the padded column. -/
theorem row_apply (c : Dev nD) (k : Fin 10240) :
    (V m c main_v22 : S1x10240.Idx → EReal) (ix2 0 k) = (V m c main_v21 : S10240x1.Idx → EReal) (ix2 k 0) := by
  rw [row_eq, col_eq]
  exact shapeCast_apply (padded m c) shapeCasts_S10240x1_S1x10240 (ix2 0 k) (ix2 k 0) (by
    rw [Shape.rowMajor_val_two, Shape.rowMajor_val_two]
    show k.val * 1 + 0 = 0 * 10240 + k.val
    omega)

/-- The program's result: the host lines after the launch keep rows 0 … 9999 of the result array as a vector,
    and there the masked sums are the row sums of the soft sign over the scores. -/
theorem result_eq (c : Dev nD) :
    (Pipeline.afterTail₀ cfgs (dats m) 0 (V0 m) [hostOps1] c main_v25 : S10000.Idx → EReal)
      = Cert.SoftRank.rowsum (scores m c) := by
  unfold Pipeline.afterTail₀
  show StableHlo.after hostOps1 _ (Proc.devRef .tc main_v25) = _
  after_results
  have e : Pipeline.withArrays (cfgs 0).spec c (V0 m c) (fun w => (dats m 0 c).arrAt w (cfgs 0).N)
      (Proc.devRef .tc main_v23) = masked m c :=
    (Pipeline.withArrays_arr spec0 launch0.win.arr_inj c (V0 m c) _ 2).trans (final23 m c)
  rw [e]
  funext i
  show shapeCast S10000 (extractStridedSlice S10000x1 ![0, 0] (masked m c) slices_S10240x1_S10000x1_0_0)
    shapeCasts_S10000x1_S10000 i = _
  obtain ⟨q, rfl⟩ : ∃ q : Fin 10000, i = ix1 q := ⟨i 0, eq_ix1 i⟩
  have hq : q.val < 10000 := q.isLt
  rw [shapeCast_apply _ shapeCasts_S10000x1_S10000 (ix1 q) (ix2 q (0 : Fin 1)) (by
      rw [Shape.rowMajor_val_two, Shape.rowMajor_val_one]
      show q.val * 1 + 0 = q.val
      omega),
    extractStridedSlice_apply ![0, 0] _ slices_S10240x1_S10000x1_0_0 (ix2 q (0 : Fin 1))
      (ix2 (⟨q.val, by omega⟩ : Fin 10240) (0 : Fin 1)) (fun a => by
        match a with
        | ⟨0, _⟩ => show q.val = 0 + q.val; omega
        | ⟨1, _⟩ => rfl)]
  exact Cert.SoftRank.paddedRowsum_eq (scores m c) _ _ (col_apply m c) (row_apply m c) q ⟨q.val, by omega⟩ rfl 0

/-- The run, read: every weakly fair execution ends with the result vector at the row sums of the soft sign
    over the scores, the five arguments unchanged. -/
theorem run : θ_run defs (onTc (τ := τ) (main (F := Ideal))) ⟨m, fun _ => 0, ρ⟩ fun r => ∀ c : Dev nD,
      r.2.mem ((c.tc : Thread nD τ).loc main_v25) = Cert.SoftRank.rowsum (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefValue.lean ====
/-
  The reference's result, index by index: from the column of scores X it forms the square table
  X i − X j (the column spread along rows, its transpose spread along columns), applies
  tanh (1000 · − 5) to every entry and sums each row from zero. At node i that is the sum over all
  nodes j of the soft sign of X i against X j.
-/
import proofs.«143994_j9586367004883_1_alg».proof.Proof.Gen.ReferenceIdeal.Read
import proofs.«143994_j9586367004883_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- Entry (i, k) of the square table reads the column at row i. -/
theorem row_index (i : S10000.Idx) (k : Fin 10000) : idx_main_v22 (idx_main_v30 i k) = ix2 (i 0) (0 : Fin 1) :=
  funext fun a => Fin.ext (by
    match a with
    | ⟨0, _⟩ => rfl
    | ⟨1, _⟩ => rfl)

/-- Entry (i, k) of the square table reads the transposed column at column k, that is the column at row k. -/
theorem col_index (i : S10000.Idx) (k : Fin 10000) :
    idx_main_v21 (idx_main_v23 (idx_main_v30 i k)) = ix2 k (0 : Fin 1) :=
  funext fun a => Fin.ext (by
    match a with
    | ⟨0, _⟩ => rfl
    | ⟨1, _⟩ => rfl)

/-- The reference's result is the row sums of the soft sign over the column of scores it computes. -/
theorem result_eq (x0 : (⟨S10000x128, .f32⟩ : BufTy).Contents (Elt Ideal)) (x1 : (⟨S2x320000, .i32⟩ : BufTy).Contents (Elt Ideal))
    (x2 : (⟨S128x128, .f32⟩ : BufTy).Contents (Elt Ideal)) (x3 : (⟨S128, .f32⟩ : BufTy).Contents (Elt Ideal))
    (x4 : (⟨S128x1, .f32⟩ : BufTy).Contents (Elt Ideal)) :
    val_main_v30 (F := Ideal) x0 x1 x2 x3 x4 = Cert.SoftRank.rowsum (val_main_v20 (F := Ideal) x0 x1 x2 x3 x4) := by
  funext i
  rw [val_main_v30_apply]
  show Ideal.ofBits .f32 0x00000000#32 + ∑ k : Fin 10000, _ = ∑ j : Fin 10000, _
  rw [Ideal.ofBits_zero_f32, zero_add]
  refine Finset.sum_congr rfl fun k _ => ?_
  rw [val_main_v29_apply, val_main_v28_apply, val_main_v26_apply, val_main_v24_apply, val_main_v22_apply,
    val_main_v23_apply, val_main_v21_apply, val_main_v25_apply, val_main_v27_apply, val_main_cst_1_apply,
    val_main_cst_2_apply, row_index, col_index]
  rfl

end Cert.ReferenceIdeal.RefValue

end
-- ==== Proof.lean ====
/-
  Node scores X (a two-layer perceptron over each node's features plus the sum of its neighbours' features)
  are ranked softly: the result at node i is Σ_j tanh (1000 · (X i − X j) − 5) over all 10000 nodes j.

  Both programs compute the column X by the same host operations in the same order. The reference then
  forms the full 10000 × 10000 table of differences and sums its rows. The kernel pads X with zeros to 10240
  rows, and on a grid of forty points sums, for each block of 256 rows, the soft signs against all 10240
  columns with the columns from 10000 on masked to zero; the host keeps the first 10000 rows. The masked
  columns add zero, so over the extended reals both results are the same sum, term by term: no law beyond
  x + 0 = x is used, and finiteness of the inputs is never needed.

  The three frames: the two kernel programs by their launch certificates, the reference by its run. The
  idealization rewrote nothing, so there is nothing to preserve.
-/
import proofs.«143994_j9586367004883_1_alg».proof.Defs
import proofs.«143994_j9586367004883_1_alg».proof.Proof.Gen.Kernel
import proofs.«143994_j9586367004883_1_alg».proof.Proof.Gen.Kernel.Skeleton
import proofs.«143994_j9586367004883_1_alg».proof.Proof.Gen.Kernel.Launch
import proofs.«143994_j9586367004883_1_alg».proof.Proof.Gen.Kernel.Points
import proofs.«143994_j9586367004883_1_alg».proof.Proof.Gen.Kernel.Frame
import proofs.«143994_j9586367004883_1_alg».proof.Proof.Gen.KernelIdeal
import proofs.«143994_j9586367004883_1_alg».proof.Proof.Gen.KernelIdeal.Skeleton
import proofs.«143994_j9586367004883_1_alg».proof.Proof.Gen.KernelIdeal.Launch
import proofs.«143994_j9586367004883_1_alg».proof.Proof.Gen.KernelIdeal.Points
import proofs.«143994_j9586367004883_1_alg».proof.Proof.Gen.KernelIdeal.Frame
import proofs.«143994_j9586367004883_1_alg».proof.Proof.Gen.ReferenceIdeal
import proofs.«143994_j9586367004883_1_alg».proof.Proof.Gen.ReferenceIdeal.Run
import proofs.«143994_j9586367004883_1_alg».proof.Proof.Gen.ReferenceIdeal.Read
import proofs.«143994_j9586367004883_1_alg».proof.Proof.Gen.Pre_finite_inputs
import proofs.«143994_j9586367004883_1_alg».proof.Proof.KernelValue
import proofs.«143994_j9586367004883_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the row sums of the soft sign over the one column of scores. -/
theorem algebraic : Cert.algebraic_KernelIdeal_ReferenceIdeal := by
  intro m ρ m' ρ' _ hagree
  refine ⟨fun c => Cert.SoftRank.rowsum (Cert.KernelIdeal.Hand.scores m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v30_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
